-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  main_v3
-- ==== Kernel.lean ====
abbrev S8192 : Shape := ⟨1, ![8192]⟩
abbrev S8192x1 : Shape := ⟨2, ![8192, 1]⟩
abbrev S8192x4096 : Shape := ⟨2, ![8192, 4096]⟩
abbrev S512x1 : Shape := ⟨2, ![512, 1]⟩
abbrev S512x4096 : Shape := ⟨2, ![512, 4096]⟩

abbrev nBuf : Space → Nat
  | .hbm => 3
  | .vmem => 4
  | .smem => 0
  | _ => 0

abbrev bufTy : (tb : Table) → Fin (tcTables nBuf tb) → BufTy
  | .hbm, ⟨0, _⟩ => ⟨S8192, .f32⟩
  | .hbm, ⟨1, _⟩ => ⟨S8192x1, .f32⟩
  | .hbm, ⟨2, _⟩ => ⟨S8192x4096, .f32⟩
  | .local _ .vmem, ⟨0, _⟩ => ⟨S512x1, .f32⟩
  | .local _ .vmem, ⟨1, _⟩ => ⟨S512x1, .f32⟩
  | .local _ .vmem, ⟨2, _⟩ => ⟨S512x4096, .f32⟩
  | .local _ .vmem, ⟨3, _⟩ => ⟨S512x4096, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8192_S8192x1 : S8192.ShapeCasts S8192x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x4096_d1_w32 : S512x4096.Iotas .tc 32 [1]
  broadcasts_S512x1_S512x4096 : S512x1.Broadcasts S512x4096
  natLt_1_32 : 1 < 32
  inb_S512x4096_S512x4096_0_0 : ∀ a, (![0, 0] : Fin 2 → Nat) a + S512x4096.size a ≤ S512x4096.size a
  h_S512x4096 : 0 < S512x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .f32 = 32 ∨ (Rect.block (s := S8192x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .f32 = 32 ∨ (Rect.block (s := S8192x4096) S512x4096.size (cc0_transform_1 i) (hinb0_1 i)).WholeWords (EltTy.packing .f32)

variable [Facts₀]

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192 : Shape := ⟨1, ![8192]⟩
abbrev S_ : Shape := ⟨0, ![]⟩
abbrev S4096 : Shape := ⟨1, ![4096]⟩
abbrev S1x4096 : Shape := ⟨2, ![1, 4096]⟩
abbrev S8192x1 : Shape := ⟨2, ![8192, 1]⟩
abbrev S8192x4096 : Shape := ⟨2, ![8192, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192, .f32⟩
  | .hbm, ⟨1, _⟩ => ⟨S_, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192, .i32⟩
  | .hbm, ⟨12, _⟩ => ⟨S4096, .i32⟩
  | .hbm, ⟨13, _⟩ => ⟨S1x4096, .i32⟩
  | .hbm, ⟨14, _⟩ => ⟨S8192x1, .i32⟩
  | .hbm, ⟨15, _⟩ => ⟨S8192x4096, .i32⟩
  | .hbm, ⟨16, _⟩ => ⟨S8192x4096, .i32⟩
  | .hbm, ⟨17, _⟩ => ⟨S8192x4096, .i1⟩
  | .hbm, ⟨18, _⟩ => ⟨S8192x4096, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S4096_S1x4096_1 : S4096.BroadcastsInDim S1x4096 (![1] : Fin 1 → Fin S1x4096.rank)
  bcast_S8192_S8192x1_0 : S8192.BroadcastsInDim S8192x1 (![0] : Fin 1 → Fin S8192x1.rank)
  bcast_S1x4096_S8192x4096_0_1 : S1x4096.BroadcastsInDim S8192x4096 (![0, 1] : Fin 2 → Fin S8192x4096.rank)
  bcast_S8192x1_S8192x4096_0_1 : S8192x1.BroadcastsInDim S8192x4096 (![0, 1] : Fin 2 → Fin S8192x4096.rank)

variable [Facts₀]

class Facts : Prop extends Facts₀ where

variable [Facts]
-- ==== Proof.Threshold.lean ====
/-
  The result both programs compute, as one function of the input vector.

  For a row whose input entry is `x` (an extended real) the row's threshold is the 32-bit word
  `thr x = fptosi (roundeven (x · 8) / 8 · 2048)`: the product with 8 rounded to the nearest integer (ties to
  even), divided by 8 again, scaled by half the number of columns (2048 = 4096 / 2) and converted to a signed
  word. Entry (r, q) of the [8192, 4096] result is the one-bit answer to "q ≥ thr (x r)" as signed words, read as
  the number 0 or 1.

  The two programs turn that bit into a number in two ways: the kernel widens it to a 32-bit word with zeros and
  converts that word as a SIGNED integer, the reference converts the bit itself as an UNSIGNED integer. A bit
  widened with zeros is a non-negative word, so the two readings are the same number (`bit_as_number`).
-/
import Idealize.ShloMosaic.PureOps.Ideal
import Idealize.ShloMosaic.Lib.ValueIdx

noncomputable section

namespace Cert.Mask

open Idealize.ShloMosaic Idealize.ShloMosaic.ValueIdx

/-- The threshold word of a row from its input entry: `fptosi (roundeven (x · 8) / 8 · 2048)`, every float
    operation the extended reals' exact one. -/
def thr (x : EReal) : BitVec 32 :=
  FloatOps.fptosi (F := Ideal) (φ := .f32) 32
    (FloatOps.mulf (F := Ideal) (φ := .f32)
      (FloatOps.hostDivf (F := Ideal) (φ := .f32)
        (FloatOps.hostUnary (F := Ideal) .roundeven (φ := .f32)
          (FloatOps.mulf (F := Ideal) (φ := .f32) x (FloatOps.ofBits (F := Ideal) .f32 0x41000000#32)))
        (FloatOps.ofBits (F := Ideal) .f32 0x41000000#32))
      (FloatOps.ofBits (F := Ideal) .f32 0x45000000#32))

/-- The [8192, 4096] result: entry (r, q) is 1 when column `q` is at or beyond row `r`'s threshold (compared
    as signed 32-bit words) and 0 otherwise. -/
def mask (x : (⟨1, ![8192]⟩ : Shape).Idx → EReal) : (⟨2, ![8192, 4096]⟩ : Shape).Idx → EReal :=
  fun i => FloatOps.uitofp (F := Ideal) .f32 (IntOp.cmpi .sge (BitVec.ofNat 32 (i 1).val) (thr (x (ix1 (i 0)))))

/-- One bit as a number: widened with zeros to 32 bits and read as a signed integer, or read directly as an
    unsigned integer, it is 0 or 1 all the same. -/
theorem bit_as_number (b : BitVec 1) :
    FloatOps.sitofp (F := Ideal) .f32 (b.setWidth 32) = FloatOps.uitofp (F := Ideal) .f32 b := by
  show (((b.setWidth 32).toInt : ℝ) : EReal) = ((b.toNat : ℝ) : EReal)
  by_cases h : b = 1#1
  · subst h; norm_num
  · rw [eq_zero_of_ne_one h]; norm_num

end Cert.Mask

end
-- ==== Proof.RefMask.lean ====
/-
  The reference's result is the mask.

  The reference multiplies the input by the splat 8, rounds (ties to even), divides by the splat 8, multiplies by
  the splat 2048 and converts to signed words: entry `r` of that vector is `thr (x r)`. It then lays the
  thresholds out as a column [8192, 1] and the column numbers 0 … 4095 as a row [1, 4096], broadcasts both to
  [8192, 4096], compares "column ≥ threshold" as signed words and converts the bit, unsigned, to a number. Read at
  an index (r, q) the broadcasts pick the column number `q` and the threshold of row `r`: the entry of `mask`.
-/
import proofs.«162533_j67748814127432_1_alg».proof.Proof.Gen.ReferenceIdeal.Read
import proofs.«162533_j67748814127432_1_alg».proof.Proof.Threshold

noncomputable section

namespace Cert.Mask

open Idealize.ShloMosaic Idealize.ShloMosaic.ValueIdx Cert.ReferenceIdeal Cert.ReferenceIdeal.Read

/-- Through the column layout and its broadcast, entry (r, q) of the broadcast thresholds reads the threshold
    vector at `r`. -/
theorem row_of_entry (i : S8192x4096.Idx) : idx_main_v10 (idx_main_v12 i) = ix1 (i 0) :=
  funext fun a => Fin.ext (by match a with | ⟨0, _⟩ => rfl)

/-- The reference's last stage, index by index, is the mask of its argument. -/
theorem reference_eq_mask (x : (⟨S8192, .f32⟩ : BufTy).Contents (Elt Ideal)) :
    val_main_v14 (F := Ideal) x = mask x := by
  funext i
  rw [val_main_v14_apply, val_main_v13_apply, val_main_v11_apply, val_main_v9_apply, val_main_v8_apply,
    val_main_v12_apply, val_main_v10_apply, val_main_v7_apply, val_main_v6_apply, val_main_v4_apply,
    val_main_v2_apply, val_main_v1_apply, val_main_v0_apply, val_main_v3_apply, val_main_v5_apply,
    val_main_cst_apply, val_main_cst_0_apply, val_main_cst_1_apply, row_of_entry]
  rfl

end Cert.Mask

end
-- ==== Proof.KernelMask.lean ====
/-
  The kernel's result is the mask.

  The region walks 16 grid points; point `t` reads rows 512·t … 512·t + 511 of the input laid out as a column
  [8192, 1] and writes rows 512·t … 512·t + 511 of the [8192, 4096] result. Inside a point the body multiplies
  the 512 column entries by 8, rounds (ties to even), divides by 8, multiplies by 2048 and converts to signed
  words — the rows' thresholds —, broadcasts them along the 4096 lanes, compares the lane number against them
  ("lane ≥ threshold", signed), widens the bit with zeros and converts the word, signed, to a number: entry (p, q)
  of the block is the mask's entry for the row's input and column `q` (`body_entry`, with `bit_as_number` for the
  two readings of the bit). The column is the input vector re-laid, entry (r, 0) the input's entry `r`
  (`column_entry`). So what point `t` writes back is the mask read through the point's block
  (`written_eq_mask`); row `r` lies in the block of point `r / 512`, so the blocks cover the array
  (`covered`) and the array ends holding the mask (`array_eq_mask`).
-/
import proofs.«162533_j67748814127432_1_alg».proof.Proof.Gen.KernelIdeal.Value
import proofs.«162533_j67748814127432_1_alg».proof.Proof.Threshold
import Idealize.ShloMosaic.Lib.Pipeline.Value
import Idealize.ShloMosaic.Lib.ValueIdx
import Idealize.ShloMosaic.Lib.StableHlo.Run

noncomputable section

namespace Cert.KernelIdeal.MaskValue

open Cert.KernelIdeal Cert.KernelIdeal.Gen Cert.Mask
open Idealize.ShloMosaic Idealize.ShloMosaic.ValueIdx Idealize.ShloMosaic.TcCoe Idealize.SL.Sem
open Idealize.ShloMosaic.Pipeline (Dat)

/-! ## One block of the body's result, entry by entry -/

/-- Entry (p, q) of the block the body stores, from the 512 column entries it loaded: the bit "q ≥ threshold of
    entry p", as the number 0 or 1. -/
theorem body_entry (x0 : Vec Ideal S512x1 .f32) (p : Fin 512) (q : Fin 4096) :
    k0_pay1 (F := Ideal) x0 (ix2 p q)
      = FloatOps.uitofp (F := Ideal) .f32 (IntOp.cmpi .sge (BitVec.ofNat 32 q.val) (thr (x0 (ix2 p 0)))) := by
  unfold k0_pay1
  dsimp only
  rw [sitofp_apply, extui_apply, bit_as_number]
  show FloatOps.uitofp (F := Ideal) .f32 (IntOp.cmpi .sge (iota .tc S512x4096 32 [1] iota_S512x4096_d1_w32 (ix2 p q))
    (broadcastTo S512x4096 _ broadcasts_S512x1_S512x4096 (ix2 p q))) = _
  rw [iota_single_apply, broadcastTo_apply _ broadcasts_S512x1_S512x4096 (ix2 p q) (ix2 p 0) (fun a => match a with
    | ⟨0, _⟩ => by show p.val = if (512 : Nat) = 1 then 0 else p.val; rw [if_neg (by decide)]
    | ⟨1, _⟩ => by show 0 = if (1 : Nat) = 1 then 0 else q.val; rw [if_pos rfl]), shapeCast_self]
  rfl

/-- A block whose loaded column is rows `b·512 …` of a vector `X` stores, at each of its entries, the mask of `X`
    at the array index with the same column and the row shifted by `b·512`. -/
theorem block_entry (x0 : Vec Ideal S512x1 .f32) (X : S8192.Idx → EReal) (b : Nat)
    (hx : ∀ (p : Fin 512) (r : Fin 8192), r.val = b * 512 + p.val → x0 (ix2 p 0) = X (ix1 r))
    (j : S512x4096.Idx) (i : S8192x4096.Idx)
    (hi0 : (i 0).val = b * 512 + (j 0).val) (hi1 : (i 1).val = (j 1).val) :
    k0_pay1 (F := Ideal) x0 j = mask X i := by
  obtain ⟨p, q, rfl⟩ : ∃ (p : Fin 512) (q : Fin 4096), j = ix2 p q := ⟨j 0, j 1, eq_ix2 j⟩
  rw [body_entry]
  unfold mask
  rw [hx p (i 0) hi0, hi1]

/-! ## The column the region reads -/

variable (m : (ℓ : Loc nD τ sig) → Buf (Elt Ideal) ℓ) (ρ : Dev nD → PrngReg)

/-- When the region is entered the column holds the input vector's elements in row-major order. -/
theorem column_eq (c : Dev nD) :
    (V m c main_v0 : S8192x1.Idx → EReal)
      = shapeCast S8192x1 (m ((c : Thread nD τ).loc main_arg0) : S8192.Idx → EReal) shapeCasts_S8192_S8192x1 := by
  dsimp only [Gen.V, Gen.hostOps0]; after_results; rfl

/-- Entry (r, 0) of the column is entry `r` of the input vector. -/
theorem column_entry (c : Dev nD) (k : S8192x1.Idx) (r : Fin 8192) (hr : r.val = (k 0).val) :
    (V m c main_v0 : S8192x1.Idx → EReal) k = (m ((c : Thread nD τ).loc main_arg0) : S8192.Idx → EReal) (ix1 r) := by
  rw [column_eq]
  refine shapeCast_apply _ shapeCasts_S8192_S8192x1 k (ix1 r) ?_
  rw [Shape.rowMajor_val_two, Shape.rowMajor_val_one]
  have h1 : (k 1).val < 1 := (k 1).isLt
  show r.val = (k 0).val * 1 + (k 1).val
  omega

/-! ## From the blocks to the array -/

theorem origin : (![0, 0] : Fin 2 → Nat) = fun _ => 0 := funext fun a => by fin_cases a <;> rfl

/-- The two windows' block indices over the 16 grid points: both move down the rows together, one block per
    point, and neither moves along the columns. -/
theorem block_indices : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) = t.val :=
  (by decide +kernel : ∀ t : Fin grid0.N, _)

/-- What point `t` writes back is the mask of the input vector read through the point's block. -/
theorem written_eq_mask (c : Dev nD) (t : Fin cfg0.N) :
    (dats m 0 c).flushed 1 t
      = ((cfg0.win 1).blk t).view.read (Elt Ideal) (mask (m ((c : Thread nD τ).loc main_arg0))) := by
  rw [Value.flushed1]
  unfold out0_1
  rw [View.canon_unit_zero origin]
  simp only [View.ld_unit_zero (S := S512x1) origin]
  obtain ⟨e0, e1, e2, e3⟩ := block_indices t
  funext j
  refine block_entry (iblk m c 0 t) (m ((c : Thread nD τ).loc main_arg0)) (win0_1.index t (0 : Fin 2)) ?_ j
    (((cfg0.win 1).blk t).view.emb j) ?_ ?_
  · intro p r hr
    refine column_entry m c (((cfg0.win 0).blk t).view.emb (ix2 p 0)) r ?_
    show r.val = win0_0.index t (0 : Fin 2) * 512 + 1 * p.val
    omega
  · show win0_1.index t (0 : Fin 2) * 512 + 1 * (j 0).val = _
    omega
  · show win0_1.index t (1 : Fin 2) * 4096 + 1 * (j 1).val = _
    omega

/-- An index of the array is in point `t`'s block iff each coordinate is in the block's range on its axis. -/
theorem mem_block (t : Fin cfg0.N) (i : S8192x4096.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v1).slice (win0_1.rect t)).set ↔ _
  rw [View.set_slice_whole, Rect.mem_set_unit]
  exact Iff.rfl

/-- Every index of the array lies in the block of the point its row selects, `row / 512`. -/
theorem covered (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  have hN : cfg0.N = 16 := N_0
  let t : Fin cfg0.N := ⟨(i 0).val / 512, by rw [hN]; omega⟩
  obtain ⟨e0, e1, e2, e3⟩ := block_indices t
  have e3' : win0_1.index t (0 : Fin 2) = (i 0).val / 512 := e3
  refine ⟨t, flush0_1 t, ?_⟩
  rw [mem_block]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- After the run the result array holds the mask of the input vector. -/
theorem array_eq_mask (c : Dev nD) :
    (dats m 0 c).arrAt 1 cfg0.N = mask (m ((c : Thread nD τ).loc main_arg0)) :=
  (dats m 0 c).arrAt_eq_of_cover 1 (mask (m ((c : Thread nD τ).loc main_arg0)))
    (fun t _ => written_eq_mask m c t) covered

/-- Every weakly fair execution of the idealized kernel ends with the result array at the mask of the input vector
    and the input unchanged. -/
theorem run : θ_run defs (onTc (τ := τ) (main (F := Ideal))) ⟨m, fun _ => 0, ρ⟩ fun r => ∀ c : Dev nD,
      r.2.mem ((c : Thread nD τ).loc main_v1) = mask (m ((c : Thread nD τ).loc main_arg0))
      ∧ r.2.mem ((c : Thread nD τ).loc main_arg0) = m ((c : Thread nD τ).loc main_arg0) :=
  (θ_run defs _ _).mono (fun r h c => ⟨(h c).1.trans (array_eq_mask m c), (h c).2⟩) (Value.run_blocks m ρ)

end Cert.KernelIdeal.MaskValue

end
-- ==== Proof.lean ====
/-
  A threshold mask: both programs turn an input vector `x` of 8192 numbers into the [8192, 4096] array whose entry
  (r, q) is 1 when column `q` is at or beyond row `r`'s threshold `fptosi (roundeven (x r · 8) / 8 · 2048)` and 0
  otherwise (`Cert.Mask.mask`, Proof/Threshold.lean).

  The kernel computes it 512 rows at a time over 16 grid points, from the input laid out as a column; the
  reference computes it in one piece with broadcasts. Read on the extended reals the two apply the very same
  operations to each input entry — the same products, the same rounding, the same quotient, the same conversion to
  a word, the same signed comparison —, so no law of arithmetic is needed and the inputs' finiteness is never used.
  The only difference is how the comparison's bit becomes a number (widened with zeros and read signed, or read
  unsigned), and that is the same 0 or 1 (`Cert.Mask.bit_as_number`).

  Proof/KernelMask.lean shows the kernel's result array ends at the mask of the input (block by block, the blocks
  covering the array); Proof/RefMask.lean that the reference's result is the mask, index by index. The frames are
  the generated ones; the idealization rewrote nothing, so there is nothing to preserve.
-/
import proofs.«162533_j67748814127432_1_alg».proof.Defs
import proofs.«162533_j67748814127432_1_alg».proof.Proof.Gen.Kernel
import proofs.«162533_j67748814127432_1_alg».proof.Proof.Gen.Kernel.Skeleton
import proofs.«162533_j67748814127432_1_alg».proof.Proof.Gen.Kernel.Launch
import proofs.«162533_j67748814127432_1_alg».proof.Proof.Gen.Kernel.Points
import proofs.«162533_j67748814127432_1_alg».proof.Proof.Gen.Kernel.Frame
import proofs.«162533_j67748814127432_1_alg».proof.Proof.Gen.KernelIdeal
import proofs.«162533_j67748814127432_1_alg».proof.Proof.Gen.KernelIdeal.Skeleton
import proofs.«162533_j67748814127432_1_alg».proof.Proof.Gen.KernelIdeal.Launch
import proofs.«162533_j67748814127432_1_alg».proof.Proof.Gen.KernelIdeal.Points
import proofs.«162533_j67748814127432_1_alg».proof.Proof.Gen.KernelIdeal.Frame
import proofs.«162533_j67748814127432_1_alg».proof.Proof.Gen.ReferenceIdeal
import proofs.«162533_j67748814127432_1_alg».proof.Proof.Gen.Pre_finite_inputs
import proofs.«162533_j67748814127432_1_alg».proof.Proof.Gen.KernelIdeal.Value
import proofs.«162533_j67748814127432_1_alg».proof.Proof.Gen.ReferenceIdeal.Run
import proofs.«162533_j67748814127432_1_alg».proof.Proof.Gen.ReferenceIdeal.Read
import proofs.«162533_j67748814127432_1_alg».proof.Proof.Threshold
import proofs.«162533_j67748814127432_1_alg».proof.Proof.RefMask
import proofs.«162533_j67748814127432_1_alg».proof.Proof.KernelMask
import Idealize.ShloMosaic.Adequacy
import Idealize.ShloMosaic.Init

noncomputable section

namespace Cert.Proof

open Idealize.ShloMosaic Idealize.SL.Sem

/-- The word-level kernel runs and leaves its input alone. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: it runs, and its input is never written. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From inputs that agree, both programs end with their result at the mask of that input. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Mask.mask (m ((c.tc : Thread Cert.KernelIdeal.nD Cert.KernelIdeal.τ).loc Cert.KernelIdeal.main_arg0)),
    Cert.KernelIdeal.MaskValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.Mask.reference_eq_mask, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
